-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x3 : Shape := ⟨3, ![8, 8192, 3]⟩
abbrev S8x2048x3 : Shape := ⟨3, ![8, 2048, 3]⟩
abbrev S_ : Shape := ⟨0, ![]⟩

class Facts : Prop where
  bcast_S_S8x8192x3 : S_.BroadcastsInDim S8x8192x3 (![] : Fin 0 → Fin S8x8192x3.rank)
  reducesTo_S8x8192x3_S_d0_1_2 : S8x8192x3.ReducesTo [0, 1, 2] S_
  h_S_ : 0 < S_.numel
  bcast_S_S8x2048x3 : S_.BroadcastsInDim S8x2048x3 (![] : Fin 0 → Fin S8x2048x3.rank)
  reducesTo_S8x2048x3_S_d0_1_2 : S8x2048x3.ReducesTo [0, 1, 2] S_

variable [Facts]

def fn {F : FTy → Type} [FloatOps F] (main_arg0 : FVec F S8x8192x3 .f32) (main_arg1 : FVec F S8x2048x3 .f32) : IVec S_ 1 :=
  let main_v0 : FVec F S8x8192x3 .f32 := Host.absf main_arg0
  let main_cst : FVec F S_ .f32 := constant S_ .f32 0x7F800000#32
  let main_v1 : FVec F S8x8192x3 .f32 := broadcastInDim S8x8192x3 ![] bcast_S_S8x8192x3 main_cst
  let main_v2 : IVec S8x8192x3 1 := cmpf .olt main_v0 main_v1
  let main_c : IVec S_ 1 := constantI S_ 1 1#1
  let main_v3 : IVec S_ 1 := (fun x v => Host.reduce IntOp.andi x v reducesTo_S8x8192x3_S_d0_1_2 h_S_) main_v2 main_c
  let main_v4 : FVec F S8x2048x3 .f32 := Host.absf main_arg1
  let main_cst_0 : FVec F S_ .f32 := constant S_ .f32 0x7F800000#32
  let main_v5 : FVec F S8x2048x3 .f32 := broadcastInDim S8x2048x3 ![] bcast_S_S8x2048x3 main_cst_0
  let main_v6 : IVec S8x2048x3 1 := cmpf .olt main_v4 main_v5
  let main_c_1 : IVec S_ 1 := constantI S_ 1 1#1
  let main_v7 : IVec S_ 1 := (fun x v => Host.reduce IntOp.andi x v reducesTo_S8x2048x3_S_d0_1_2 h_S_) main_v6 main_c_1
  let main_v8 : IVec S_ 1 := andi main_v3 main_v7
  main_v8
-- ==== Kernel.lean ====
abbrev S8x8192x3 : Shape := ⟨3, ![8, 8192, 3]⟩
abbrev S8x2048x3 : Shape := ⟨3, ![8, 2048, 3]⟩
abbrev S8x3x2048 : Shape := ⟨3, ![8, 3, 2048]⟩
abbrev S8x8192x1 : Shape := ⟨3, ![8, 8192, 1]⟩
abbrev S8x1x2048 : Shape := ⟨3, ![8, 1, 2048]⟩
abbrev S1x1024x3 : Shape := ⟨3, ![1, 1024, 3]⟩
abbrev S1x3x2048 : Shape := ⟨3, ![1, 3, 2048]⟩
abbrev S1x1024x1 : Shape := ⟨3, ![1, 1024, 1]⟩
abbrev S1x1x2048 : Shape := ⟨3, ![1, 1, 2048]⟩
abbrev S1x2048 : Shape := ⟨2, ![1, 2048]⟩
abbrev S1024x3 : Shape := ⟨2, ![1024, 3]⟩
abbrev S3x2048 : Shape := ⟨2, ![3, 2048]⟩
abbrev S1024 : Shape := ⟨1, ![1024]⟩
abbrev S1024x1 : Shape := ⟨2, ![1024, 1]⟩
abbrev S2048 : Shape := ⟨1, ![2048]⟩
abbrev S1024x2048 : Shape := ⟨2, ![1024, 2048]⟩
abbrev S_ : Shape := ⟨0, ![]⟩

abbrev nBuf : Space → Nat
  | .hbm => 12
  | .vmem => 8
  | .smem => 0
  | _ => 0

abbrev bufTy : (tb : Table) → Fin (tcTables nBuf tb) → BufTy
  | .hbm, ⟨0, _⟩ => ⟨S8x8192x3, .f32⟩
  | .hbm, ⟨1, _⟩ => ⟨S8x2048x3, .f32⟩
  | .hbm, ⟨2, _⟩ => ⟨S8x3x2048, .f32⟩
  | .hbm, ⟨3, _⟩ => ⟨S8x8192x1, .f32⟩
  | .hbm, ⟨4, _⟩ => ⟨S8x1x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x2048, .f32⟩
  | .local _ .vmem, ⟨3, _⟩ => ⟨S1x3x2048, .f32⟩
  | .local _ .vmem, ⟨4, _⟩ => ⟨S1x1024x1, .f32⟩
  | .local _ .vmem, ⟨5, _⟩ => ⟨S1x1024x1, .f32⟩
  | .local _ .vmem, ⟨6, _⟩ => ⟨S1x1x2048, .f32⟩
  | .local _ .vmem, ⟨7, _⟩ => ⟨S1x1x2048, .f32⟩
  | _, _ => ⟨S8x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8x2048x3_S8x3x2048_0_2_1 : S8x2048x3.Transposes [0, 2, 1] S8x3x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  reduces_S1024x3_S1024 : S1024x3.Reduces [1] S1024
  shapeCasts_S1024_S1024x1 : S1024.ShapeCasts S1024x1
  reduces_S3x2048_S2048 : S3x2048.Reduces [0] S2048
  shapeCasts_S2048_S1x2048 : S2048.ShapeCasts S1x2048
  bitsLt_bf16_f32 : FTy.bits .bf16 < FTy.bits .f32
  broadcasts_S1024x1_S1024x2048 : S1024x1.Broadcasts S1024x2048
  broadcasts_S1x2048_S1024x2048 : S1x2048.Broadcasts S1024x2048
  reduces_S1024x2048_S1024 : S1024x2048.Reduces [1] S1024
  reduces_S1024x2048_S2048 : S1024x2048.Reduces [0] S2048
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  reducesTo_S8x8192x1_S_d0_1_2 : S8x8192x1.ReducesTo [0, 1, 2] S_
  h_S_ : 0 < S_.numel
  reducesTo_S8x1x2048_S_d0_1_2 : S8x1x2048.ReducesTo [0, 1, 2] S_
  dot_S1024x3_S3x2048_S1024x2048_1_0_0_1_n_n_wf : DotDims.WF S1024x3 S3x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S8x8192x3.size a
  hwx0_0 : ∀ i : grid0.Coords, EltTy.bits .f32 = 32 ∨ (Rect.block (s := S8x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S8x3x2048.size a
  hwx0_1 : ∀ i : grid0.Coords, EltTy.bits .f32 = 32 ∨ (Rect.block (s := S8x3x2048) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S8x8192x1.size a
  hwx0_2 : ∀ i : grid0.Coords, EltTy.bits .f32 = 32 ∨ (Rect.block (s := S8x8192x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S8x1x2048.size a
  hwx0_3 : ∀ i : grid0.Coords, EltTy.bits .f32 = 32 ∨ (Rect.block (s := S8x1x2048) S1x1x2048.size (cc0_transform_3 i) (hinb0_3 i)).WholeWords (EltTy.packing .f32)

variable [Facts₀]

def dot_S1024x3_S3x2048_S1024x2048_1_0_0_1_n_n : DotDims S1024x3 S3x2048 S1024x2048 where
  lhsContracting := [1]
  rhsContracting := [0]
  lhsNonContracting := [0]
  rhsNonContracting := [1]
  lhsBatch := []
  rhsBatch := []
  wf := dot_S1024x3_S3x2048_S1024x2048_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x8192x3 : Shape := ⟨3, ![8, 8192, 3]⟩
abbrev S8x2048x3 : Shape := ⟨3, ![8, 2048, 3]⟩
abbrev S_ : Shape := ⟨0, ![]⟩
abbrev S8x8192 : Shape := ⟨2, ![8, 8192]⟩
abbrev S8x2048 : Shape := ⟨2, ![8, 2048]⟩
abbrev S8x8192x2048 : Shape := ⟨3, ![8, 8192, 2048]⟩
abbrev S8x8192x1 : Shape := ⟨3, ![8, 8192, 1]⟩
abbrev S8x1x2048 : Shape := ⟨3, ![8, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8x8192x3, .f32⟩
  | .hbm, ⟨1, _⟩ => ⟨S8x2048x3, .f32⟩
  | .hbm, ⟨2, _⟩ => ⟨S8x8192x3, .f32⟩
  | .hbm, ⟨3, _⟩ => ⟨S_, .f32⟩
  | .hbm, ⟨4, _⟩ => ⟨S8x8192, .f32⟩
  | .hbm, ⟨5, _⟩ => ⟨S8x2048x3, .f32⟩
  | .hbm, ⟨6, _⟩ => ⟨S_, .f32⟩
  | .hbm, ⟨7, _⟩ => ⟨S8x2048, .f32⟩
  | .hbm, ⟨8, _⟩ => ⟨S8x8192x2048, .f32⟩
  | .hbm, ⟨9, _⟩ => ⟨S8x8192x1, .f32⟩
  | .hbm, ⟨10, _⟩ => ⟨S8x1x2048, .f32⟩
  | .hbm, ⟨11, _⟩ => ⟨S8x8192x2048, .f32⟩
  | .hbm, ⟨12, _⟩ => ⟨S8x8192x2048, .f32⟩
  | .hbm, ⟨13, _⟩ => ⟨S8x8192x2048, .f32⟩
  | .hbm, ⟨14, _⟩ => ⟨S_, .f32⟩
  | .hbm, ⟨15, _⟩ => ⟨S8x8192x2048, .f32⟩
  | .hbm, ⟨16, _⟩ => ⟨S8x8192x2048, .f32⟩
  | .hbm, ⟨17, _⟩ => ⟨S8x8192x2048, .f32⟩
  | .hbm, ⟨18, _⟩ => ⟨S_, .f32⟩
  | .hbm, ⟨19, _⟩ => ⟨S8x8192, .f32⟩
  | .hbm, ⟨20, _⟩ => ⟨S_, .f32⟩
  | .hbm, ⟨21, _⟩ => ⟨S8x2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  reducesTo_S8x8192x3_S8x8192_d2 : S8x8192x3.ReducesTo [2] S8x8192
  h_S_ : 0 < S_.numel
  reducesTo_S8x2048x3_S8x2048_d2 : S8x2048x3.ReducesTo [2] S8x2048
  bcast_S8x8192_S8x8192x1_0_1 : S8x8192.BroadcastsInDim S8x8192x1 (![0, 1] : Fin 2 → Fin S8x8192x1.rank)
  bcast_S8x2048_S8x1x2048_0_2 : S8x2048.BroadcastsInDim S8x1x2048 (![0, 2] : Fin 2 → Fin S8x1x2048.rank)
  bcast_S8x8192x1_S8x8192x2048_0_1_2 : S8x8192x1.BroadcastsInDim S8x8192x2048 (![0, 1, 2] : Fin 3 → Fin S8x8192x2048.rank)
  bcast_S8x1x2048_S8x8192x2048_0_1_2 : S8x1x2048.BroadcastsInDim S8x8192x2048 (![0, 1, 2] : Fin 3 → Fin S8x8192x2048.rank)
  bcast_S_S8x8192x2048 : S_.BroadcastsInDim S8x8192x2048 (![] : Fin 0 → Fin S8x8192x2048.rank)
  reducesTo_S8x8192x2048_S8x8192_d2 : S8x8192x2048.ReducesTo [2] S8x8192
  reducesTo_S8x8192x2048_S8x2048_d1 : S8x8192x2048.ReducesTo [1] S8x2048
  reducesTo_S8x8192_S_d0_1 : S8x8192.ReducesTo [0, 1] S_
  reducesTo_S8x2048_S_d0_1 : S8x2048.ReducesTo [0, 1] S_
  dot_S8x8192x3_S8x2048x3_S8x8192x2048_2_2_1_1_0_0_wf : DotDims.WF S8x8192x3 S8x2048x3 S8x8192x2048 [2] [2] [1] [1] [0] [0]

variable [Facts₀]

def dot_S8x8192x3_S8x2048x3_S8x8192x2048_2_2_1_1_0_0 : DotDims S8x8192x3 S8x2048x3 S8x8192x2048 where
  lhsContracting := [2]
  rhsContracting := [2]
  lhsNonContracting := [1]
  rhsNonContracting := [1]
  lhsBatch := [0]
  rhsBatch := [0]
  wf := dot_S8x8192x3_S8x2048x3_S8x8192x2048_2_2_1_1_0_0_wf

class Facts : Prop extends Facts₀ where

variable [Facts]
-- ==== Proof.Spec.lean ====
/- The Chamfer loss between two batches of point clouds, as one function of the two arrays.

   For a batch b, a point n of the first cloud and a point m of the second, the squared distance is taken in its
   expanded form |p|² + |q|² − 2 p·q. Each point of either cloud keeps the least such distance to the other cloud
   (a fold of min from +∞), the two families of minima are summed, and the total is divided by the batch count.

   The minimum over all 8192 points of the first cloud can be taken tile by tile, 1024 points at a time: a running
   minimum that has seen the first k tiles, met with the minimum over tile k, has seen the first k + 1. A minimum is
   carried here by its universal property: the numbers below it are exactly the numbers below every term. -/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx
open scoped BigOperators

/-- The literals both programs share, never evaluated: 2, +∞, 0 and 8. -/
abbrev two : EReal := Ideal.ofBits .f32 0x40000000#32
abbrev top : EReal := Ideal.ofBits .f32 0x7F800000#32
abbrev zero : EReal := Ideal.ofBits .f32 0x00000000#32
abbrev eight : EReal := Ideal.ofBits .f32 0x41000000#32

/-- The first cloud: 8 batches of 8192 points in 3 coordinates; the second: 8 batches of 2048 points. -/
abbrev Cloud1 := (⟨3, ![8, 8192, 3]⟩ : Shape).Idx → EReal
abbrev Cloud2 := (⟨3, ![8, 2048, 3]⟩ : Shape).Idx → EReal

/-- The squared distance between point n of the first cloud and point m of the second, in batch b, expanded. -/
def dist (x : Cloud1) (y : Cloud2) (b : Fin 8) (n : Fin 8192) (m : Fin 2048) : EReal :=
  ((∑ k : Fin 3, x (ix3 b n k) * x (ix3 b n k)) + ∑ k : Fin 3, y (ix3 b m k) * y (ix3 b m k))
    - two * ∑ k : Fin 3, x (ix3 b n k) * y (ix3 b m k)

/-- The least squared distance from point n of the first cloud to the second cloud. -/
def near1 (x : Cloud1) (y : Cloud2) (b : Fin 8) (n : Fin 8192) : EReal :=
  (Finset.univ : Finset (Fin 2048)).fold min top fun m => dist x y b n m

/-- The least squared distance from point m of the second cloud to the first cloud. -/
def near2 (x : Cloud1) (y : Cloud2) (b : Fin 8) (m : Fin 2048) : EReal :=
  (Finset.univ : Finset (Fin 8192)).fold min top fun n => dist x y b n m

/-- The loss: both families of minima summed (each sum started from the zero literal), over the batch count. -/
def loss (x : Cloud1) (y : Cloud2) : EReal :=
  Ideal.div ((zero + ∑ i : (⟨2, ![8, 8192]⟩ : Shape).Idx, near1 x y (i 0) (i 1))
    + (zero + ∑ i : (⟨2, ![8, 2048]⟩ : Shape).Idx, near2 x y (i 0) (i 1))) eight

/-! ## One tile's squared distances -/

/-- The expanded squared distance between row r of a tile of 1024 points and column m of a tile of the second
    cloud laid out coordinate-major. -/
def tileDist (g : (⟨3, ![1, 1024, 3]⟩ : Shape).Idx → EReal) (s : (⟨3, ![1, 3, 2048]⟩ : Shape).Idx → EReal)
    (r : Fin 1024) (m : Fin 2048) : EReal :=
  ((∑ k : Fin 3, g (ix3 (0 : Fin 1) r k) * g (ix3 (0 : Fin 1) r k))
      + ∑ k : Fin 3, s (ix3 (0 : Fin 1) k m) * s (ix3 (0 : Fin 1) k m))
    - two * ∑ k : Fin 3, g (ix3 (0 : Fin 1) r k) * s (ix3 (0 : Fin 1) k m)

/-- When the tile's row r is point n of batch b and its columns are the second cloud's points of that batch, the
    tile's distance is the clouds' distance. -/
theorem tileDist_eq (x : Cloud1) (y : Cloud2) (g : (⟨3, ![1, 1024, 3]⟩ : Shape).Idx → EReal)
    (s : (⟨3, ![1, 3, 2048]⟩ : Shape).Idx → EReal) (b : Fin 8) (n : Fin 8192) (r : Fin 1024) (m : Fin 2048)
    (hg : ∀ k : Fin 3, g (ix3 (0 : Fin 1) r k) = x (ix3 b n k))
    (hs : ∀ k : Fin 3, s (ix3 (0 : Fin 1) k m) = y (ix3 b m k)) :
    tileDist g s r m = dist x y b n m := by
  unfold tileDist dist
  simp only [hg, hs]

/-! ## A minimum over the first cloud, taken tile by tile -/

/-- `a` is the minimum, from +∞, of `f` over the points of the first k tiles: the numbers below `a` are those below
    +∞ and below every such term. -/
def SeenTiles (f : Fin 8192 → EReal) (k : ℕ) (a : EReal) : Prop :=
  ∀ c : EReal, c ≤ a ↔ c ≤ top ∧ ∀ n : Fin 8192, n.val < 1024 * k → c ≤ f n

/-- Before any tile the running minimum is +∞. -/
theorem seenTiles_zero (f : Fin 8192 → EReal) : SeenTiles f 0 top :=
  fun c => ⟨fun h => ⟨h, fun n hn => absurd hn (by omega)⟩, fun h => h.1⟩

/-- Meeting the running minimum with the minimum over tile k (whose entry r is `f` at point 1024 k + r) extends it
    by that tile. -/
theorem seenTiles_succ (f : Fin 8192 → EReal) (k : ℕ) (hk : k < 8) (a : EReal) (ha : SeenTiles f k a)
    (g : Fin 1024 → EReal) (hg : ∀ (r : Fin 1024) (n : Fin 8192), n.val = 1024 * k + r.val → g r = f n) :
    SeenTiles f (k + 1) (min a ((Finset.univ : Finset (Fin 1024)).fold min top g)) := by
  intro c
  rw [le_min_iff, ha c, Finset.le_fold_min]
  constructor
  · rintro ⟨⟨h1, h2⟩, _, h3⟩
    refine ⟨h1, fun n hn => ?_⟩
    by_cases h : n.val < 1024 * k
    · exact h2 n h
    · have hr : n.val - 1024 * k < 1024 := by omega
      have := h3 ⟨n.val - 1024 * k, hr⟩ (Finset.mem_univ _)
      rwa [hg ⟨n.val - 1024 * k, hr⟩ n (by simp only; omega)] at this
  · rintro ⟨h1, h2⟩
    refine ⟨⟨h1, fun n hn => h2 n (by omega)⟩, h1, fun r _ => ?_⟩
    have hn : 1024 * k + r.val < 8192 := by have := r.isLt; omega
    rw [hg r ⟨1024 * k + r.val, hn⟩ rfl]
    exact h2 _ (by simp only; have := r.isLt; omega)

/-- Once all eight tiles are seen the running minimum is the minimum over the whole cloud. -/
theorem seenTiles_all (f : Fin 8192 → EReal) (a : EReal) (ha : SeenTiles f 8 a) :
    a = (Finset.univ : Finset (Fin 8192)).fold min top f :=
  eq_of_forall_le_iff fun c => by
    rw [ha c, Finset.le_fold_min]
    exact ⟨fun h => ⟨h.1, fun n _ => h.2 n (by have := n.isLt; omega)⟩, fun h => ⟨h.1, fun n _ => h.2 n (Finset.mem_univ _)⟩⟩

/-! ## Sums over arrays with a unit axis -/

/-- An index of an [a, b, 1] array is an index of an [a, b] array. -/
def dropLastUnit {a b : ℕ} : (⟨3, ![a, b, 1]⟩ : Shape).Idx ≃ (⟨2, ![a, b]⟩ : Shape).Idx where
  toFun i := ix2 (i 0) (i 1)
  invFun j := ix3 (j 0) (j 1) (0 : Fin 1)
  left_inv i := by
    funext d
    match d with
    | ⟨0, _⟩ => rfl
    | ⟨1, _⟩ => rfl
    | ⟨2, _⟩ => exact Fin.ext (by have h : (i 2).val < 1 := (i 2).isLt; show 0 = (i 2).val; omega)
  right_inv j := by
    funext d
    match d with
    | ⟨0, _⟩ => rfl
    | ⟨1, _⟩ => rfl

/-- An index of an [a, 1, b] array is an index of an [a, b] array. -/
def dropMidUnit {a b : ℕ} : (⟨3, ![a, 1, b]⟩ : Shape).Idx ≃ (⟨2, ![a, b]⟩ : Shape).Idx where
  toFun i := ix2 (i 0) (i 2)
  invFun j := ix3 (j 0) (0 : Fin 1) (j 1)
  left_inv i := by
    funext d
    match d with
    | ⟨0, _⟩ => rfl
    | ⟨1, _⟩ => exact Fin.ext (by have h : (i 1).val < 1 := (i 1).isLt; show 0 = (i 1).val; omega)
    | ⟨2, _⟩ => rfl
  right_inv j := by
    funext d
    match d with
    | ⟨0, _⟩ => rfl
    | ⟨1, _⟩ => rfl

/-- A sum over an [a, b, 1] array whose entries depend on the first two coordinates is the sum over [a, b]. -/
theorem sum_dropLastUnit {a b : ℕ} (f : Fin a → Fin b → EReal) :
    (∑ i : (⟨3, ![a, b, 1]⟩ : Shape).Idx, f (i 0) (i 1)) = ∑ j : (⟨2, ![a, b]⟩ : Shape).Idx, f (j 0) (j 1) :=
  Fintype.sum_equiv dropLastUnit _ _ fun _ => rfl

/-- A sum over an [a, 1, b] array whose entries depend on the outer two coordinates is the sum over [a, b]. -/
theorem sum_dropMidUnit {a b : ℕ} (f : Fin a → Fin b → EReal) :
    (∑ i : (⟨3, ![a, 1, b]⟩ : Shape).Idx, f (i 0) (i 2)) = ∑ j : (⟨2, ![a, b]⟩ : Shape).Idx, f (j 0) (j 1) :=
  Fintype.sum_equiv dropMidUnit _ _ fun _ => rfl

end Cert.Chamfer

end
-- ==== Proof.RefLoss.lean ====
/- The reference computes the Chamfer loss: read one operation at a time at an index, its squared distances are the
   expanded ones, each of its two min-reductions is a fold of min from +∞ over the reduced axis, and its two total sums
   run over the two families of minima. -/
import proofs.«129738_j12506944766654_1_alg».proof.Proof.Gen.ReferenceIdeal.Read
import proofs.«129738_j12506944766654_1_alg».proof.Proof.Spec

noncomputable section

namespace Cert.Chamfer.Ref

open Cert.ReferenceIdeal Cert.ReferenceIdeal.Gen Cert.ReferenceIdeal.Read Idealize.ShloMosaic Idealize.ShloMosaic.ValueIdx
open Cert.Chamfer
open scoped BigOperators

/-- The reference's squared distance at (b, n, m) is the expanded one: its row and column sums of squares start from
    the zero literal, which adds nothing. -/
theorem sqdist_apply (x : Cloud1) (y : Cloud2) (b : Fin 8) (n : Fin 8192) (m : Fin 2048) :
    val_main_v12 (F := Ideal) x y (ix3 b n m) = dist x y b n m := by
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e2 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have e3 : ∀ k : Fin 3, lidx_main_v4 (ix3 b n m) k = ix3 b n k := fun k =>
    funext fun a => Fin.ext (by match a with | ⟨0, _⟩ => rfl | ⟨1, _⟩ => rfl | ⟨2, _⟩ => rfl)
  have e4 : ∀ k : Fin 3, ridx_main_v4 (ix3 b n m) k = ix3 b m k := fun k =>
    funext fun a => Fin.ext (by match a with | ⟨0, _⟩ => rfl | ⟨1, _⟩ => rfl | ⟨2, _⟩ => rfl)
  rw [val_main_v12_apply, val_main_v9_apply, val_main_v7_apply, val_main_v5_apply, val_main_v1_apply,
    val_main_v8_apply, val_main_v6_apply, val_main_v3_apply, val_main_v11_apply, val_main_v10_apply,
    val_main_v4_apply]
  simp only [val_main_v0_apply, val_main_v2_apply, val_main_cst_apply, val_main_cst_0_apply, val_main_cst_1_apply,
    Ideal.ofBits_def, Ideal.addf_def, Ideal.subf_def, Ideal.mulf_def, e1, e2, e3, e4, Ideal.ofBits_zero_f32, zero_add]
  rfl

/-- The reference's minimum over the second cloud, at point (b, n) of the first. -/
theorem near1_apply (x : Cloud1) (y : Cloud2) (b : Fin 8) (n : Fin 8192) :
    val_main_v13 (F := Ideal) x y (ix2 b n) = near1 x y b n := by
  unfold val_main_v13
  rw [Host.reduce_eq_fold_single FloatOps.minimumf _ _ reducesTo_S8x8192x2048_S8x8192_d2 (by decide) h_S_]
  refine congrArg (fun f => Finset.fold min top f (Finset.univ : Finset (Fin 2048))) (funext fun m => ?_)
  show val_main_v12 (F := Ideal) x y _ = _
  refine Eq.trans (congrArg (val_main_v12 (F := Ideal) x y) ?_) (sqdist_apply x y b n m)
  funext a; apply Fin.ext
  match a with | ⟨0, _⟩ => rfl | ⟨1, _⟩ => rfl | ⟨2, _⟩ => rfl

/-- The reference's minimum over the first cloud, at point (b, m) of the second. -/
theorem near2_apply (x : Cloud1) (y : Cloud2) (b : Fin 8) (m : Fin 2048) :
    val_main_v14 (F := Ideal) x y (ix2 b m) = near2 x y b m := by
  unfold val_main_v14
  rw [Host.reduce_eq_fold_single FloatOps.minimumf _ _ reducesTo_S8x8192x2048_S8x2048_d1 (by decide) h_S_]
  refine congrArg (fun f => Finset.fold min top f (Finset.univ : Finset (Fin 8192))) (funext fun n => ?_)
  show val_main_v12 (F := Ideal) x y _ = _
  refine Eq.trans (congrArg (val_main_v12 (F := Ideal) x y) ?_) (sqdist_apply x y b n m)
  funext a; apply Fin.ext
  match a with | ⟨0, _⟩ => rfl | ⟨1, _⟩ => rfl | ⟨2, _⟩ => rfl

/-- The reference's result is the loss. -/
theorem result_eq (x : Cloud1) (y : Cloud2) :
    val_main_v18 (F := Ideal) x y = fun _ => loss x y := by
  funext i
  rw [val_main_v18_apply, val_main_v17_apply, val_main_v15_apply, val_main_v16_apply]
  have s1 : (∑ j : S8x8192.Idx, val_main_v13 (F := Ideal) x y j) = ∑ j : (⟨2, ![8, 8192]⟩ : Shape).Idx, near1 x y (j 0) (j 1) :=
    Finset.sum_congr rfl fun j _ => (congrArg (val_main_v13 (F := Ideal) x y) (eq_ix2 j)).trans (near1_apply x y (j 0) (j 1))
  have s2 : (∑ j : S8x2048.Idx, val_main_v14 (F := Ideal) x y j) = ∑ j : (⟨2, ![8, 2048]⟩ : Shape).Idx, near2 x y (j 0) (j 1) :=
    Finset.sum_congr rfl fun j _ => (congrArg (val_main_v14 (F := Ideal) x y) (eq_ix2 j)).trans (near2_apply x y (j 0) (j 1))
  rw [s1, s2]
  rfl

end Cert.Chamfer.Ref

end
-- ==== Proof.KernelPieces.lean ====
/- What one run of the kernel body leaves in its two output buffers, as values of the buffers it read.

   The first output's buffer is written once, whole, with the row minima of the tile's squared distances. The second
   output's buffer holds the running column minima: at the first row tile of a batch it is first reset to +∞ and the
   reset value is read back; at every later tile the value left by the tile before is read. In both cases it ends at
   the minimum of what was read and the tile's column minima. -/
import proofs.«129738_j12506944766654_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

/-- Every store and load of the body starts at the origin of its buffer. -/
theorem origin3 : (![0, 0, 0] : Fin 3 → Nat) = fun _ => 0 := funext fun a => by fin_cases a <;> rfl

/-- First tile of a batch: the row minima of the tile. -/
theorem rowMins_first (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x1024x1 .f32) (harg4 : arg4.IsWhole) (arg5 : Memref sig .tc .vmem S1x1x2048 .f32) (harg5 : arg5.IsWhole) (hc0 : cond0_0 i)
    (x0 : Vec F S1x1024x3 .f32) (x1 : Vec F S1x3x2048 .f32) :
    out0_A_2 c i arg2 harg2 arg3 harg3 arg4 harg4 arg5 harg5 hc0 x0 x1 = k0_pay4 x0 x1 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_unit_zero origin3]
  simp only [View.readAt_eq_ld, harg2.read_unread, harg3.read_unread, View.ld_unit_zero (S := S1x1024x3) origin3,
    View.ld_unit_zero (S := S1x3x2048) origin3]

/-- Later tiles: the row minima of the tile, whatever the other output's buffer held. -/
theorem rowMins_later (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x1024x1 .f32) (harg4 : arg4.IsWhole) (arg5 : Memref sig .tc .vmem S1x1x2048 .f32) (harg5 : arg5.IsWhole) (hc0 : ¬cond0_0 i)
    (x0 : Vec F S1x1024x3 .f32) (x1 : Vec F S1x3x2048 .f32) (xo3 : Vec F S1x1x2048 .f32) :
    out0_B_2 c i arg2 harg2 arg3 harg3 arg4 harg4 arg5 harg5 hc0 x0 x1 xo3 = k0_pay4 x0 x1 := by
  unfold out0_B_2
  rw [View.read_writes_eq_canon _ _ _ (cover0_B_2 c i arg2 harg2 arg3 harg3 arg4 harg4 arg5 harg5 hc0 x0 x1 xo3)]
  unfold kernelRun0_B
  dsimp only
  sl_unfold_words
  rw [View.canon_unit_zero origin3]
  simp only [View.readAt_eq_ld, harg2.read_unread, harg3.read_unread, View.ld_unit_zero (S := S1x1024x3) origin3,
    View.ld_unit_zero (S := S1x3x2048) origin3]

/-- First tile of a batch: the reset value met with the tile's column minima. -/
theorem colMins_first (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x1024x1 .f32) (harg4 : arg4.IsWhole) (arg5 : Memref sig .tc .vmem S1x1x2048 .f32) (harg5 : arg5.IsWhole) (hc0 : cond0_0 i)
    (x0 : Vec F S1x1024x3 .f32) (x1 : Vec F S1x3x2048 .f32) :
    out0_A_3 c i arg2 harg2 arg3 harg3 arg4 harg4 arg5 harg5 hc0 x0 x1 = k0_pay1 (k0_pay5 x0 x1 (k0_pay2 (F := F))) := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1x2048) origin3]
  simp only [View.readAt_eq_ld, harg2.read_unread, harg3.read_unread, View.ld_unit_zero (S := S1x1024x3) origin3,
    View.ld_unit_zero (S := S1x3x2048) origin3, View.readCov_unit_zero (S := S1x1x2048) _ origin3]

/-- Later tiles: what the tile before left, met with the tile's column minima. -/
theorem colMins_later (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x1024x1 .f32) (harg4 : arg4.IsWhole) (arg5 : Memref sig .tc .vmem S1x1x2048 .f32) (harg5 : arg5.IsWhole) (hc0 : ¬cond0_0 i)
    (x0 : Vec F S1x1024x3 .f32) (x1 : Vec F S1x3x2048 .f32) (xo3 : Vec F S1x1x2048 .f32) :
    out0_B_3 c i arg2 harg2 arg3 harg3 arg4 harg4 arg5 harg5 hc0 x0 x1 xo3 = k0_pay1 (k0_pay5 x0 x1 xo3) := by
  unfold out0_B_3
  rw [View.read_writes_eq_canon _ _ _ (cover0_B_3 c i arg2 harg2 arg3 harg3 arg4 harg4 arg5 harg5 hc0 x0 x1 xo3)]
  unfold kernelRun0_B
  dsimp only
  sl_unfold_words
  rw [View.canon_unit_zero origin3]
  simp only [View.readAt_eq_ld, harg2.read_unread, harg3.read_unread, harg5.read_unread, View.ld_unit_zero (S := S1x1024x3) origin3,
    View.ld_unit_zero (S := S1x3x2048) origin3, View.ld_unit_zero (S := S1x1x2048) origin3]

end Cert.KernelIdeal.Pieces

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.LibMatrixReduce.lean ====
/- Reductions of a matrix along one axis, and the column forms of a cast and a broadcast, read at one index.

   A sum along the rows or the columns of an [a, b] matrix is a sum over the reduced coordinate; a minimum along them
   is a fold of min from the accumulator's value over that coordinate. A vector of a entries cast to one column reads
   its entry; one column broadcast over b columns reads, at (p, c), the column's entry p. -/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.MatrixReduce

open Idealize.ShloMosaic Idealize.ShloMosaic.ValueIdx
open scoped BigOperators

variable {φ : FTy}

/-- Row r with column k put back is (r, k). -/
theorem lift_col {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Column c with row k put back is (k, c). -/
theorem lift_row {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A sum along each row, at row r: the sum of the row's entries. -/
theorem sum_along_row {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_col h r k))

/-- A sum along each column, at column c: the sum of the column's entries. -/
theorem sum_along_col {a b : ℕ} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (c : Fin b) :
    multiReduction .add [0] ⟨1, ![b]⟩ src acc h hφ hacc (ix1 c) = ∑ k : Fin a, src (ix2 k c) :=
  (Ideal.multiReduction_add_single src acc h hφ hacc (ix1 c)).trans
    (Finset.sum_congr rfl fun k _ => congrArg src (lift_row h c k))

/-- A minimum along each row, at row r: the fold of min from the accumulator's value over the row's entries. -/
theorem min_along_row {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.minimumf.neutral φ hφ)
    (r : Fin a) :
    multiReduction .minimumf [1] ⟨1, ![a]⟩ src acc h hφ hacc (ix1 r)
      = (Finset.univ : Finset (Fin b)).fold min (Ideal.ofBits φ acc) fun k => src (ix2 r k) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_col h r k))

/-- A minimum along each column, at column c: the fold of min from the accumulator's value over the column's entries. -/
theorem min_along_col {a b : ℕ} (src : FVec Ideal ⟨2, ![a, b]⟩ φ) (acc : BitVec φ.bits)
    (h : (⟨2, ![a, b]⟩ : Shape).Reduces [0] (⟨1, ![b]⟩ : Shape)) (hφ : FKind.Formats φ) (hacc : acc = FKind.minimumf.neutral φ hφ)
    (c : Fin b) :
    multiReduction .minimumf [0] ⟨1, ![b]⟩ src acc h hφ hacc (ix1 c)
      = (Finset.univ : Finset (Fin a)).fold min (Ideal.ofBits φ acc) fun k => src (ix2 k c) := by
  rw [multiReduction_minimumf_eq_fold]
  refine (h.fold_filter_drop_single _ _ src (ix1 c)).trans ?_
  exact congrArg (fun f => Finset.fold min (Ideal.ofBits φ acc) f (Finset.univ : Finset (Fin a)))
    (funext fun k => congrArg src (lift_row h c k))

/-! ## Columns -/

/-- A vector of a entries cast to one column reads, at (i, u), entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over b columns reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatrixReduce

end
-- ==== Proof.KernelPayload.lean ====
/- The kernel body's arithmetic at one index, over the extended reals.

   From a tile g of 1024 points and the batch's second cloud s laid out coordinate-major, the body forms the
   expanded squared distances of every row against every column, takes their minimum along each row and along each
   column, and meets the column minima with the running value it read. -/
import proofs.«129738_j12506944766654_1_alg».proof.Proof.Gen.KernelIdeal.Skeleton
import proofs.«129738_j12506944766654_1_alg».proof.Proof.Spec
import proofs.«129738_j12506944766654_1_alg».proof.Proof.LibDotPlain
import proofs.«129738_j12506944766654_1_alg».proof.Proof.LibMatrixReduce
import Idealize.ShloMosaic.Lib.ValueLayout

noncomputable section

namespace Cert.KernelIdeal.Payload

open Cert.KernelIdeal Cert.KernelIdeal.Gen Idealize.ShloMosaic Idealize.ShloMosaic.ValueIdx
open Cert.Chamfer Cert.MatrixReduce
open scoped BigOperators

/-- The tile's squared distance at row r, column m: the row's and the column's sums of squares, less twice the
    product's entry, each a sum over the three coordinates. -/
theorem sqdist_apply (g : Vec Ideal S1x1024x3 .f32) (s : Vec Ideal S1x3x2048 .f32) (r : Fin 1024) (m : Fin 2048) :
    k0_pay3 (F := Ideal) g s (ix2 r m) = tileDist g s r m := by
  unfold k0_pay3 tileDist
  simp only [subf_apply, addf_apply, mulf_apply, broadcast_apply, matmul,
    broadcastTo_a1_ab_apply, broadcastTo_1b_ab_apply, shapeCast_a_a1_apply, shapeCast_a_1a_apply]
  refine congrArg₂ (· - ·) (congrArg₂ (· + ·) ?_ ?_) (congrArg₂ (· * ·) rfl ?_)
  · refine (sum_along_row _ _ _ _ _ r).trans (Finset.sum_congr rfl fun k _ => ?_)
    show shapeCast S1024x3 g _ (ix2 r k) * shapeCast S1024x3 g _ (ix2 r k) = _
    rw [shapeCast_1ab_ab_apply]
  · refine (sum_along_col _ _ _ _ _ m).trans (Finset.sum_congr rfl fun k _ => ?_)
    show shapeCast S3x2048 s _ (ix2 k m) * shapeCast S3x2048 s _ (ix2 k m) = _
    rw [shapeCast_1ab_ab_apply]
  · refine (Cert.DotPlain.matmul_zero_rows_cols dot_S1024x3_S3x2048_S1024x2048_1_0_0_1_n_n rfl rfl rfl rfl rfl rfl
      none _ _ r m).trans (Finset.sum_congr rfl fun k _ => ?_)
    show shapeCast S1024x3 g _ (ix2 r k) * shapeCast S3x2048 s _ (ix2 k m) = _
    rw [shapeCast_1ab_ab_apply, shapeCast_1ab_ab_apply]

/-- The first output's block at row r: the minimum, from +∞, of the row's squared distances. -/
theorem rowMin_apply (g : Vec Ideal S1x1024x3 .f32) (s : Vec Ideal S1x3x2048 .f32) (r : Fin 1024) :
    k0_pay4 (F := Ideal) g s (ix3 (0 : Fin 1) r (0 : Fin 1))
      = (Finset.univ : Finset (Fin 2048)).fold min top fun m => tileDist g s r m := by
  unfold k0_pay4
  dsimp only
  rw [shapeCast_ab_1ab_apply, shapeCast_a_a1_apply]
  refine (min_along_row _ _ _ _ _ r).trans ?_
  exact congrArg (fun f => Finset.fold min top f (Finset.univ : Finset (Fin 2048))) (funext fun m => sqdist_apply g s r m)

/-- The second output's block at column m: the running value read, met with the minimum, from +∞, of the column's
    squared distances. -/
theorem colMin_apply (g : Vec Ideal S1x1024x3 .f32) (s : Vec Ideal S1x3x2048 .f32) (acc : Vec Ideal S1x1x2048 .f32) (m : Fin 2048) :
    k0_pay5 (F := Ideal) g s acc (ix2 (0 : Fin 1) m)
      = min (acc (ix3 (0 : Fin 1) (0 : Fin 1) m)) ((Finset.univ : Finset (Fin 1024)).fold min top fun r => tileDist g s r m) := by
  unfold k0_pay5
  dsimp only
  rw [minimumf_apply, shapeCast_1ab_ab_apply, shapeCast_a_1a_apply]
  refine congrArg (min _) ((min_along_col _ _ _ _ _ m).trans ?_)
  exact congrArg (fun f => Finset.fold min top f (Finset.univ : Finset (Fin 1024))) (funext fun r => sqdist_apply g s r m)

/-- The value the reset stores is +∞ everywhere. -/
theorem reset_apply (m : Fin 2048) : k0_pay2 (F := Ideal) (ix3 (0 : Fin 1) (0 : Fin 1) m) = top := by
  unfold k0_pay2
  rw [shapeCast_ab_1ab_apply]
  rfl

/-- The stored block is the running value recast: entry (0, 0, m) is entry (0, m). -/
theorem recast_apply (v : FVec Ideal S1x2048 .f32) (m : Fin 2048) :
    k0_pay1 (F := Ideal) v (ix3 (0 : Fin 1) (0 : Fin 1) m) = v (ix2 (0 : Fin 1) m) := by
  unfold k0_pay1
  rw [shapeCast_ab_1ab_apply]

end Cert.KernelIdeal.Payload

end
-- ==== Proof.KernelBlocks.lean ====
/- Which entries of the two clouds a grid point's input blocks hold.

   Grid point t works on batch t / 8 and row tile t % 8. Its block of the first cloud is that batch's rows
   1024 (t % 8) … 1024 (t % 8) + 1023; its block of the second cloud is the whole batch, coordinate-major: the
   host transposed the second cloud's last two axes before the region, so entry (k, m) is coordinate k of point m. -/
import proofs.«129738_j12506944766654_1_alg».proof.Proof.Gen.KernelIdeal.Frame
import Idealize.ShloMosaic.Lib.Pipeline.Value
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- The first cloud's window moves with both grid axes: block (t / 8, t % 8, 0). -/
theorem index_gt : ∀ t : Fin cfg0.N, win0_0.index t (0 : Fin 3) = t.val / 8 ∧ win0_0.index t (1 : Fin 3) = t.val % 8 ∧ win0_0.index t (2 : Fin 3) = 0 :=
  (by decide +kernel : ∀ t : Fin grid0.N, win0_0.index t (0 : Fin 3) = t.val / 8 ∧ win0_0.index t (1 : Fin 3) = t.val % 8 ∧ win0_0.index t (2 : Fin 3) = 0)

/-- The second cloud's window moves with the batch only: block (t / 8, 0, 0). -/
theorem index_st : ∀ t : Fin cfg0.N, win0_1.index t (0 : Fin 3) = t.val / 8 ∧ win0_1.index t (1 : Fin 3) = 0 ∧ win0_1.index t (2 : Fin 3) = 0 :=
  (by decide +kernel : ∀ t : Fin grid0.N, win0_1.index t (0 : Fin 3) = t.val / 8 ∧ win0_1.index t (1 : Fin 3) = 0 ∧ win0_1.index t (2 : Fin 3) = 0)

/-- The row minima's window moves like the first cloud's. -/
theorem index_rows : ∀ t : Fin cfg0.N, win0_2.index t (0 : Fin 3) = t.val / 8 ∧ win0_2.index t (1 : Fin 3) = t.val % 8 ∧ win0_2.index t (2 : Fin 3) = 0 :=
  (by decide +kernel : ∀ t : Fin grid0.N, win0_2.index t (0 : Fin 3) = t.val / 8 ∧ win0_2.index t (1 : Fin 3) = t.val % 8 ∧ win0_2.index t (2 : Fin 3) = 0)

/-- The column minima's window moves with the batch only. -/
theorem index_cols : ∀ t : Fin cfg0.N, win0_3.index t (0 : Fin 3) = t.val / 8 ∧ win0_3.index t (1 : Fin 3) = 0 ∧ win0_3.index t (2 : Fin 3) = 0 :=
  (by decide +kernel : ∀ t : Fin grid0.N, win0_3.index t (0 : Fin 3) = t.val / 8 ∧ win0_3.index t (1 : Fin 3) = 0 ∧ win0_3.index t (2 : Fin 3) = 0)

/-- Row r, coordinate k of point t's block of the first cloud is point 1024 (t % 8) + r of batch t / 8. -/
theorem gtBlock_apply (c : Dev nD) (t : Fin cfg0.N) (b : Fin 8) (n : Fin 8192) (r : Fin 1024) (k : Fin 3)
    (hb : b.val = t.val / 8) (hn : n.val = 1024 * (t.val % 8) + r.val) :
    (iblk m c 0 t : Vec F S1x1024x3 .f32) (ix3 (0 : Fin 1) r k) = m ((c : Thread nD τ).loc main_arg0) (ix3 b n k) := by
  rw [← V_main_arg0 m c]
  unfold iblk
  rw [View.read_apply]
  show (V m c main_arg0 : S8x8192x3.Idx → Elt F .f32) _ = _
  refine congrArg (V m c main_arg0 : S8x8192x3.Idx → Elt F .f32) (funext fun a => Fin.ext ?_)
  match a with
  | ⟨0, _⟩ => show win0_0.index t 0 * 1 + 1 * 0 = b.val; rw [(index_gt t).1]; omega
  | ⟨1, _⟩ => show win0_0.index t 1 * 1024 + 1 * r.val = n.val; rw [(index_gt t).2.1]; omega
  | ⟨2, _⟩ => show win0_0.index t 2 * 3 + 1 * k.val = k.val; rw [(index_gt t).2.2]; omega

/-- The region finds the second cloud transposed: the one host operation before it. -/
theorem stArray_eq (c : Dev nD) :
    (V m c main_v0 : S8x3x2048.Idx → Elt F .f32)
      = transpose S8x3x2048 [0, 2, 1] (m ((c : Thread nD τ).loc main_arg1)) transposes_S8x2048x3_S8x3x2048_0_2_1 := by
  show StableHlo.after hostOps0 (fun b => m (c, b)) (Proc.devRef .tc main_v0) = _
  after_results

/-- Coordinate k, column p of point t's block of the second cloud is coordinate k of point p of batch t / 8. -/
theorem stBlock_apply (c : Dev nD) (t : Fin cfg0.N) (b : Fin 8) (k : Fin 3) (p : Fin 2048) (hb : b.val = t.val / 8) :
    (iblk m c 1 t : Vec F S1x3x2048 .f32) (ix3 (0 : Fin 1) k p) = m ((c : Thread nD τ).loc main_arg1) (ix3 b p k) := by
  rw [← transpose_ix3_021_apply (m ((c : Thread nD τ).loc main_arg1)) transposes_S8x2048x3_S8x3x2048_0_2_1 b k p, ← stArray_eq m c]
  unfold iblk
  rw [View.read_apply]
  show (V m c main_v0 : S8x3x2048.Idx → Elt F .f32) _ = _
  refine congrArg (V m c main_v0 : S8x3x2048.Idx → Elt F .f32) (funext fun a => Fin.ext ?_)
  match a with
  | ⟨0, _⟩ => show win0_1.index t 0 * 1 + 1 * 0 = b.val; rw [(index_st t).1]; omega
  | ⟨1, _⟩ => show win0_1.index t 1 * 3 + 1 * k.val = k.val; rw [(index_st t).2.1]; omega
  | ⟨2, _⟩ => show win0_1.index t 2 * 2048 + 1 * p.val = p.val; rw [(index_st t).2.2]; omega

end Cert.KernelIdeal.Blocks

end
-- ==== Proof.KernelRunning.lean ====
/- What the two output buffers hold after each grid point, in terms of the two clouds.

   After point t, of batch b = t / 8 and row tile j = t % 8, the first output's buffer holds, for each row r of the
   tile, the least squared distance from point 1024 j + r of the first cloud to the second cloud. The second output's
   buffer is carried from tile to tile within a batch: after tile j it holds, for each point of the second cloud, the
   least squared distance to the first 1024 (j + 1) points of the first cloud — by induction on the grid point. -/
import proofs.«129738_j12506944766654_1_alg».proof.Proof.KernelPieces
import proofs.«129738_j12506944766654_1_alg».proof.Proof.KernelPayload
import proofs.«129738_j12506944766654_1_alg».proof.Proof.KernelBlocks

noncomputable section

namespace Cert.KernelIdeal.Running

open Cert.KernelIdeal Cert.KernelIdeal.Gen Idealize.ShloMosaic Idealize.ShloMosaic.TcCoe Idealize.SL.Sem Idealize.ShloMosaic.ValueIdx
open Cert.Chamfer Cert.KernelIdeal.Pieces Cert.KernelIdeal.Payload Cert.KernelIdeal.Blocks

variable (m : (ℓ : Loc nD τ sig) → Buf (Elt Ideal) ℓ)

/-- The two clouds as launched. -/
abbrev cloud1 (c : Dev nD) : Cloud1 := m ((c : Thread nD τ).loc main_arg0)
abbrev cloud2 (c : Dev nD) : Cloud2 := m ((c : Thread nD τ).loc main_arg1)

/-- Point t's two input blocks, at their literal types. -/
abbrev gtBlk (c : Dev nD) (t : Fin cfg0.N) : Vec Ideal S1x1024x3 .f32 := iblk m c 0 t
abbrev stBlk (c : Dev nD) (t : Fin cfg0.N) : Vec Ideal S1x3x2048 .f32 := iblk m c 1 t

/-- What the second output's buffer held when point t began, for a point that is not a batch's first. -/
abbrev carried (c : Dev nD) (t : Fin cfg0.N) : Vec Ideal S1x1x2048 .f32 :=
  (outsAt0 m c (t.val - 1) (Nat.lt_of_le_of_lt (Nat.sub_le _ _) t.isLt)).2

/-- At point t the tile's squared distances are the clouds': row r is point 1024 (t % 8) + r of batch t / 8. -/
theorem tileDist_at (c : Dev nD) (t : Fin cfg0.N) (b : Fin 8) (n : Fin 8192) (r : Fin 1024) (p : Fin 2048)
    (hb : b.val = t.val / 8) (hn : n.val = 1024 * (t.val % 8) + r.val) :
    tileDist (gtBlk m c t) (stBlk m c t) r p = dist (cloud1 m c) (cloud2 m c) b n p :=
  tileDist_eq _ _ _ _ b n r p (fun k => gtBlock_apply m c t b n r k hb hn) (fun k => stBlock_apply m c t b k p hb)

/-- After any point the first output's buffer holds the tile's row minima. -/
theorem rows_tile (c : Dev nD) (t : Fin cfg0.N) (r : Fin 1024) :
    (outsAt0 m c t.val t.isLt).1 (ix3 (0 : Fin 1) r (0 : Fin 1))
      = (Finset.univ : Finset (Fin 2048)).fold min top fun p => tileDist (gtBlk m c t) (stBlk m c t) r p := by
  by_cases h0 : t.val % 8 = 0
  · rw [outsAt0_A m c t h0]
    dsimp only
    refine (congrFun (rowMins_first (F := Ideal) c (grid0.coords t) (ms0_0 t) (hs0_0 t) (ms0_1 t) (hs0_1 t) (ms0_2 t) (hs0_2 t) (ms0_3 t) (hs0_3 t) ((hcond0_0 t).mpr h0) (gtBlk m c t) (stBlk m c t))
      (ix3 (0 : Fin 1) r (0 : Fin 1))).trans ?_
    exact rowMin_apply _ _ r
  · rw [outsAt0_B m c t h0]
    dsimp only
    refine (congrFun (rowMins_later (F := Ideal) c (grid0.coords t) (ms0_0 t) (hs0_0 t) (ms0_1 t) (hs0_1 t) (ms0_2 t) (hs0_2 t) (ms0_3 t) (hs0_3 t) (fun h => h0 ((hcond0_0 t).mp h)) (gtBlk m c t) (stBlk m c t) (carried m c t))
      (ix3 (0 : Fin 1) r (0 : Fin 1))).trans ?_
    exact rowMin_apply _ _ r

/-- So it holds the least squared distances from the tile's points to the second cloud. -/
theorem rows_after (c : Dev nD) (t : Fin cfg0.N) (b : Fin 8) (n : Fin 8192) (r : Fin 1024)
    (hb : b.val = t.val / 8) (hn : n.val = 1024 * (t.val % 8) + r.val) :
    (outsAt0 m c t.val t.isLt).1 (ix3 (0 : Fin 1) r (0 : Fin 1)) = near1 (cloud1 m c) (cloud2 m c) b n := by
  rw [rows_tile m c t r]
  unfold near1
  exact congrArg (fun f => Finset.fold min top f (Finset.univ : Finset (Fin 2048))) (funext fun p => tileDist_at m c t b n r p hb hn)

/-- At a batch's first point the second output's buffer ends at +∞ met with the tile's column minima. -/
theorem cols_first (c : Dev nD) (t : Fin cfg0.N) (h0 : t.val % 8 = 0) (p : Fin 2048) :
    (outsAt0 m c t.val t.isLt).2 (ix3 (0 : Fin 1) (0 : Fin 1) p)
      = min top ((Finset.univ : Finset (Fin 1024)).fold min top fun r => tileDist (gtBlk m c t) (stBlk m c t) r p) := by
  rw [outsAt0_A m c t h0]
  dsimp only
  refine (congrFun (colMins_first (F := Ideal) c (grid0.coords t) (ms0_0 t) (hs0_0 t) (ms0_1 t) (hs0_1 t) (ms0_2 t) (hs0_2 t) (ms0_3 t) (hs0_3 t) ((hcond0_0 t).mpr h0) (gtBlk m c t) (stBlk m c t))
    (ix3 (0 : Fin 1) (0 : Fin 1) p)).trans ?_
  rw [recast_apply, colMin_apply, reset_apply]

/-- At a later point it ends at what the point before left, met with the tile's column minima. -/
theorem cols_later (c : Dev nD) (t : Fin cfg0.N) (h0 : ¬t.val % 8 = 0) (p : Fin 2048) :
    (outsAt0 m c t.val t.isLt).2 (ix3 (0 : Fin 1) (0 : Fin 1) p)
      = min (carried m c t (ix3 (0 : Fin 1) (0 : Fin 1) p))
          ((Finset.univ : Finset (Fin 1024)).fold min top fun r => tileDist (gtBlk m c t) (stBlk m c t) r p) := by
  rw [outsAt0_B m c t h0]
  dsimp only
  refine (congrFun (colMins_later (F := Ideal) c (grid0.coords t) (ms0_0 t) (hs0_0 t) (ms0_1 t) (hs0_1 t) (ms0_2 t) (hs0_2 t) (ms0_3 t) (hs0_3 t) (fun h => h0 ((hcond0_0 t).mp h)) (gtBlk m c t) (stBlk m c t) (carried m c t))
    (ix3 (0 : Fin 1) (0 : Fin 1) p)).trans ?_
  rw [recast_apply, colMin_apply]

/-- THE RUNNING MINIMUM. After point n, of batch b, the second output's buffer at column p is the minimum, from +∞,
    of the squared distances from point p of the second cloud to the first 1024 (n % 8 + 1) points of the first. -/
theorem cols_after (c : Dev nD) : ∀ (n : ℕ) (h : n < cfg0.N) (b : Fin 8), b.val = n / 8 → ∀ p : Fin 2048,
    SeenTiles (fun k => dist (cloud1 m c) (cloud2 m c) b k p) (n % 8 + 1) ((outsAt0 m c n h).2 (ix3 (0 : Fin 1) (0 : Fin 1) p))
  | 0, h, b, hb, p => by
    rw [cols_first m c ⟨0, h⟩ rfl p]
    exact seenTiles_succ _ 0 (by omega) top (seenTiles_zero _) _ fun r k hk =>
      tileDist_at m c ⟨0, h⟩ b k r p hb (by simp only [Nat.zero_mod]; omega)
  | n + 1, h, b, hb, p => by
    have hN : cfg0.N = 64 := N_0
    by_cases h0 : (n + 1) % 8 = 0
    · rw [cols_first m c ⟨n + 1, h⟩ h0 p, h0]
      exact seenTiles_succ _ 0 (by omega) top (seenTiles_zero _) _ fun r k hk =>
        tileDist_at m c ⟨n + 1, h⟩ b k r p hb (by simp only [h0]; omega)
    · rw [cols_later m c ⟨n + 1, h⟩ h0 p]
      have ih := cols_after c n (Nat.lt_of_succ_lt h) b (by omega) p
      have hk : n % 8 + 1 = (n + 1) % 8 := by omega
      rw [hk] at ih
      exact seenTiles_succ _ ((n + 1) % 8) (Nat.mod_lt _ (by omega)) _ ih _ fun r k hk =>
        tileDist_at m c ⟨n + 1, h⟩ b k r p hb hk

/-- After a batch's last point the second output's buffer holds the least squared distances from the second cloud's
    points to the whole first cloud. -/
theorem cols_done (c : Dev nD) (t : Fin cfg0.N) (b : Fin 8) (hb : b.val = t.val / 8) (h7 : t.val % 8 = 7) (p : Fin 2048) :
    (outsAt0 m c t.val t.isLt).2 (ix3 (0 : Fin 1) (0 : Fin 1) p) = near2 (cloud1 m c) (cloud2 m c) b p := by
  have h := cols_after m c t.val t.isLt b hb p
  rw [h7] at h
  exact seenTiles_all _ _ h

end Cert.KernelIdeal.Running

end
-- ==== Proof.KernelLoss.lean ====
/- The kernel's result is the Chamfer loss of the two clouds.

   Every grid point writes its tile's row minima back to its own 1024 rows of the first result array, so that array
   ends holding, for every point of the first cloud, the least squared distance to the second cloud. The second result
   array's block of a batch is written back once, after the batch's last row tile, when the running column minima have
   seen the whole first cloud. The host then sums both arrays, adds the sums and divides by the batch count. -/
import proofs.«129738_j12506944766654_1_alg».proof.Proof.KernelRunning
import Idealize.ShloMosaic.Lib.Pipeline.Value
import Idealize.ShloMosaic.Lib.StableHlo.Run

noncomputable section

namespace Cert.KernelIdeal.Loss

open Cert.KernelIdeal Cert.KernelIdeal.Gen Idealize.ShloMosaic Idealize.ShloMosaic.TcCoe Idealize.SL.Sem Idealize.ShloMosaic.ValueIdx
open Idealize.ShloMosaic.Pipeline (Dat)
open Cert.Chamfer Cert.KernelIdeal.Blocks Cert.KernelIdeal.Running
open scoped BigOperators

variable (m : (ℓ : Loc nD τ sig) → Buf (Elt Ideal) ℓ) (ρ : Dev nD → PrngReg)

/-- The first result array: the least squared distance from each point of the first cloud to the second. -/
abbrev rowsArr (c : Dev nD) : S8x8192x1.Idx → EReal := fun i => near1 (cloud1 m c) (cloud2 m c) (i 0) (i 1)
/-- The second result array: the least squared distance from each point of the second cloud to the first. -/
abbrev colsArr (c : Dev nD) : S8x1x2048.Idx → EReal := fun i => near2 (cloud1 m c) (cloud2 m c) (i 0) (i 2)

/-! ## The first result array -/

/-- What point t writes back to the first result array is that array's block t. -/
theorem flushed_rows (c : Dev nD) (t : Fin cfg0.N) :
    (dats m 0 c).flushed 2 t = ((cfg0.win 2).blk t).view.read (Elt Ideal) (rowsArr m c) := by
  have hN : t.val < 64 := lt_of_lt_of_eq t.isLt (show cfg0.N = 64 from N_0)
  show (cfg0.win 2).cut (grid0.coords t) ((dats m 0 c).after 2 t) = _
  rw [after0_2]
  funext j
  have h0 : (j 0).val < 1 := (j 0).isLt
  have h1 : (j 1).val < 1024 := (j 1).isLt
  have h2 : (j 2).val < 1 := (j 2).isLt
  have ej : (j : S1x1024x1.Idx) = ix3 (0 : Fin 1) (⟨(j 1).val, h1⟩ : Fin 1024) (0 : Fin 1) := funext fun a => Fin.ext (by
    match a with
    | ⟨0, _⟩ => show (j 0).val = 0; omega
    | ⟨1, _⟩ => rfl
    | ⟨2, _⟩ => show (j 2).val = 0; omega)
  show (outsAt0 m c t.val t.isLt).1 j = rowsArr m c (((cfg0.win 2).blk t).view.emb j)
  refine ((congrArg (outsAt0 m c t.val t.isLt).1 ej).trans
    (rows_after m c t (⟨t.val / 8, by omega⟩ : Fin 8) (⟨1024 * (t.val % 8) + (j 1).val, by omega⟩ : Fin 8192) ⟨(j 1).val, h1⟩ rfl rfl)).trans ?_
  refine congrArg₂ (near1 (cloud1 m c) (cloud2 m c)) (Fin.ext ?_) (Fin.ext ?_)
  · show t.val / 8 = win0_2.index t 0 * 1 + 1 * (j 0).val
    rw [(index_rows t).1]; omega
  · show 1024 * (t.val % 8) + (j 1).val = win0_2.index t 1 * 1024 + 1 * (j 1).val
    rw [(index_rows t).2.1]; omega

/-- An index of the first result array is in point t's block iff each coordinate is in the block's range. -/
theorem mem_rowsBlk (t : Fin cfg0.N) (i : S8x8192x1.Idx) :
    i ∈ ((cfg0.win 2).blk t).view.set ↔ ∀ a : Fin 3, win0_2.index t a * S1x1024x1.size a ≤ (i a).val ∧ (i a).val < win0_2.index t a * S1x1024x1.size a + S1x1024x1.size a := by
  show i ∈ ((View.whole main_v1_0).slice (win0_2.rect t)).set ↔ _
  rw [View.set_slice_whole, Rect.mem_set_unit]
  exact Iff.rfl

/-- The first result array after the run. -/
theorem final_rows (c : Dev nD) : (dats m 0 c).arrAt 2 cfg0.N = rowsArr m c :=
  (dats m 0 c).arrAt_eq_of_cover 2 (rowsArr m c) (fun t _ => flushed_rows m c t) fun i => by
    have h0 : (i 0).val < 8 := (i 0).isLt
    have h1 : (i 1).val < 8192 := (i 1).isLt
    have h2 : (i 2).val < 1 := (i 2).isLt
    have hN : cfg0.N = 64 := N_0
    refine ⟨⟨8 * (i 0).val + (i 1).val / 1024, by omega⟩, flush0_2 _, ?_⟩
    rw [mem_rowsBlk]
    obtain ⟨e0, e1, e2⟩ := index_rows ⟨8 * (i 0).val + (i 1).val / 1024, by omega⟩
    intro a
    match a with
    | ⟨0, _⟩ => show win0_2.index _ 0 * 1 ≤ (i 0).val ∧ (i 0).val < win0_2.index _ 0 * 1 + 1; rw [e0]; dsimp only; omega
    | ⟨1, _⟩ => show win0_2.index _ 1 * 1024 ≤ (i 1).val ∧ (i 1).val < win0_2.index _ 1 * 1024 + 1024; rw [e1]; dsimp only; omega
    | ⟨2, _⟩ => show win0_2.index _ 2 * 1 ≤ (i 2).val ∧ (i 2).val < win0_2.index _ 2 * 1 + 1; rw [e2]; omega

/-! ## The second result array -/

/-- What a batch's last point writes back to the second result array is that array's block of the batch. -/
theorem flushed_cols (c : Dev nD) (t : Fin cfg0.N) (hf : (cfg0.win 3).flush t = true) :
    (dats m 0 c).flushed 3 t = ((cfg0.win 3).blk t).view.read (Elt Ideal) (colsArr m c) := by
  have hN : t.val < 64 := lt_of_lt_of_eq t.isLt (show cfg0.N = 64 from N_0)
  have h7 : t.val % 8 = 7 := (flush0_3 t).mp hf
  show (cfg0.win 3).cut (grid0.coords t) ((dats m 0 c).after 3 t) = _
  rw [after0_3]
  funext j
  have h0 : (j 0).val < 1 := (j 0).isLt
  have h1 : (j 1).val < 1 := (j 1).isLt
  have h2 : (j 2).val < 2048 := (j 2).isLt
  have ej : (j : S1x1x2048.Idx) = ix3 (0 : Fin 1) (0 : Fin 1) (⟨(j 2).val, h2⟩ : Fin 2048) := funext fun a => Fin.ext (by
    match a with
    | ⟨0, _⟩ => show (j 0).val = 0; omega
    | ⟨1, _⟩ => show (j 1).val = 0; omega
    | ⟨2, _⟩ => rfl)
  show (outsAt0 m c t.val t.isLt).2 j = colsArr m c (((cfg0.win 3).blk t).view.emb j)
  refine ((congrArg (outsAt0 m c t.val t.isLt).2 ej).trans
    (cols_done m c t (⟨t.val / 8, by omega⟩ : Fin 8) rfl h7 ⟨(j 2).val, h2⟩)).trans ?_
  refine congrArg₂ (near2 (cloud1 m c) (cloud2 m c)) (Fin.ext ?_) (Fin.ext ?_)
  · show t.val / 8 = win0_3.index t 0 * 1 + 1 * (j 0).val
    rw [(index_cols t).1]; omega
  · show (j 2).val = win0_3.index t 2 * 2048 + 1 * (j 2).val
    rw [(index_cols t).2.2]; omega

/-- An index of the second result array is in point t's block iff each coordinate is in the block's range. -/
theorem mem_colsBlk (t : Fin cfg0.N) (i : S8x1x2048.Idx) :
    i ∈ ((cfg0.win 3).blk t).view.set ↔ ∀ a : Fin 3, win0_3.index t a * S1x1x2048.size a ≤ (i a).val ∧ (i a).val < win0_3.index t a * S1x1x2048.size a + S1x1x2048.size a := by
  show i ∈ ((View.whole main_v1_1).slice (win0_3.rect t)).set ↔ _
  rw [View.set_slice_whole, Rect.mem_set_unit]
  exact Iff.rfl

/-- The second result array after the run. -/
theorem final_cols (c : Dev nD) : (dats m 0 c).arrAt 3 cfg0.N = colsArr m c :=
  (dats m 0 c).arrAt_eq_of_cover 3 (colsArr m c) (flushed_cols m c) fun i => by
    have h0 : (i 0).val < 8 := (i 0).isLt
    have h1 : (i 1).val < 1 := (i 1).isLt
    have h2 : (i 2).val < 2048 := (i 2).isLt
    have hN : cfg0.N = 64 := N_0
    refine ⟨⟨8 * (i 0).val + 7, by omega⟩, (flush0_3 _).mpr (by dsimp only; omega), ?_⟩
    rw [mem_colsBlk]
    obtain ⟨e0, e1, e2⟩ := index_cols ⟨8 * (i 0).val + 7, by omega⟩
    intro a
    match a with
    | ⟨0, _⟩ => show win0_3.index _ 0 * 1 ≤ (i 0).val ∧ (i 0).val < win0_3.index _ 0 * 1 + 1; rw [e0]; dsimp only; omega
    | ⟨1, _⟩ => show win0_3.index _ 1 * 1 ≤ (i 1).val ∧ (i 1).val < win0_3.index _ 1 * 1 + 1; rw [e1]; omega
    | ⟨2, _⟩ => show win0_3.index _ 2 * 2048 ≤ (i 2).val ∧ (i 2).val < win0_3.index _ 2 * 2048 + 2048; rw [e2]; omega

/-! ## The host operations after the region -/

/-- The host's tail over the two result arrays: both summed from zero, the sums added, over eight. -/
def tail (a1 : S8x8192x1.Idx → EReal) (a2 : S8x1x2048.Idx → EReal) : S_.Idx → EReal :=
  Host.divf (F := Ideal) (addf (Host.reduceAdd (F := Ideal) a1 (constant (F := Ideal) S_ .f32 0x00000000#32) reducesTo_S8x8192x1_S_d0_1_2 h_S_)
    (Host.reduceAdd (F := Ideal) a2 (constant (F := Ideal) S_ .f32 0x00000000#32) reducesTo_S8x1x2048_S_d0_1_2 h_S_))
    (constant (F := Ideal) S_ .f32 0x41000000#32)

/-- What the result buffer holds after the tail, over the arrays the region left. -/
theorem tail_run (c : Dev nD) :
    Pipeline.afterTail₀ cfgs (dats m) 0 (V0 m) [hostOps1] c main_v5 = tail (rowsArr m c) (colsArr m c) := by
  unfold Pipeline.afterTail₀
  show StableHlo.after hostOps1 _ (Proc.devRef .tc main_v5) = _
  after_results
  have e1 : Pipeline.withArrays (cfgs 0).spec c (V0 m c) (fun w => (dats m 0 c).arrAt w (cfgs 0).N) (Proc.devRef .tc main_v1_0)
      = rowsArr m c := (Pipeline.withArrays_arr spec0 launch0.win.arr_inj c _ _ 2).trans (final_rows m c)
  have e2 : Pipeline.withArrays (cfgs 0).spec c (V0 m c) (fun w => (dats m 0 c).arrAt w (cfgs 0).N) (Proc.devRef .tc main_v1_1)
      = colsArr m c := (Pipeline.withArrays_arr spec0 launch0.win.arr_inj c _ _ 3).trans (final_cols m c)
  rw [e1, e2]
  rfl

/-- The tail over the two arrays of minima is the loss: a sum over an array with a unit axis is the sum over the
    array without it. -/
theorem tail_loss (c : Dev nD) : tail (rowsArr m c) (colsArr m c) = fun _ => loss (cloud1 m c) (cloud2 m c) := by
  funext i
  have s1 : Host.reduceAdd (F := Ideal) (rowsArr m c) (constant (F := Ideal) S_ .f32 0x00000000#32) reducesTo_S8x8192x1_S_d0_1_2 h_S_ i
      = zero + ∑ j : (⟨2, ![8, 8192]⟩ : Shape).Idx, near1 (cloud1 m c) (cloud2 m c) (j 0) (j 1) := by
    simp only [Host.reduceAdd, Ideal.hostReduceAdd_def]
    exact (Ideal.hostReduceAdd_total reducesTo_S8x8192x1_S_d0_1_2 (fun b => b.elim0) _ _ i).trans
      (congrArg (zero + ·) (sum_dropLastUnit (near1 (cloud1 m c) (cloud2 m c))))
  have s2 : Host.reduceAdd (F := Ideal) (colsArr m c) (constant (F := Ideal) S_ .f32 0x00000000#32) reducesTo_S8x1x2048_S_d0_1_2 h_S_ i
      = zero + ∑ j : (⟨2, ![8, 2048]⟩ : Shape).Idx, near2 (cloud1 m c) (cloud2 m c) (j 0) (j 1) := by
    simp only [Host.reduceAdd, Ideal.hostReduceAdd_def]
    exact (Ideal.hostReduceAdd_total reducesTo_S8x1x2048_S_d0_1_2 (fun b => b.elim0) _ _ i).trans
      (congrArg (zero + ·) (sum_dropMidUnit (near2 (cloud1 m c) (cloud2 m c))))
  unfold tail loss
  exact congrArg₂ Ideal.div (congrArg₂ (· + ·) s1 s2) rfl

/-! ## The run, read -/

/-- Every weakly fair execution of the kernel's program terminates with the result at the loss of the two clouds as
    launched, and the clouds unchanged. -/
theorem run : θ_run defs (onTc (τ := τ) (main (F := Ideal))) ⟨m, fun _ => 0, ρ⟩ fun r => ∀ c : Dev nD,
      r.2.mem ((c.tc : Thread nD τ).loc main_v5) = (fun _ => loss (cloud1 m c) (cloud2 m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v5 (Pipeline.mem_restRefs_of main_v5 (by decide) (by decide))).trans ((tail_run m c).trans (tail_loss m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Loss

end
-- ==== Proof.lean ====
/- The Chamfer loss kernel against its reference, over the extended reals.

   Both programs compute, for two batches of point clouds, the expanded squared distance |p|² + |q|² − 2 p·q of every
   pair of points, the least such distance from each point of either cloud to the other cloud, the sum of all these
   minima, and that sum over the batch count. The kernel tiles the first cloud, 1024 points a tile: the minima over
   the second cloud are final tile by tile, the minima over the first cloud are a running minimum carried across a
   batch's eight tiles from +∞. A minimum does not depend on the grouping of its terms, a sum over an array does not
   depend on a unit axis, and every literal (2, +∞, 0, 8) is the same word on both sides, so the two results are one
   function of the two clouds. No law used needs the inputs to be finite.

   The three frames are the programs' runs with the result dropped; the idealization rewrote nothing. -/
import proofs.«129738_j12506944766654_1_alg».proof.Defs
import proofs.«129738_j12506944766654_1_alg».proof.Proof.Gen.Kernel
import proofs.«129738_j12506944766654_1_alg».proof.Proof.Gen.Kernel.Skeleton
import proofs.«129738_j12506944766654_1_alg».proof.Proof.Gen.Kernel.Launch
import proofs.«129738_j12506944766654_1_alg».proof.Proof.Gen.Kernel.Points
import proofs.«129738_j12506944766654_1_alg».proof.Proof.Gen.Kernel.Frame
import proofs.«129738_j12506944766654_1_alg».proof.Proof.Gen.KernelIdeal
import proofs.«129738_j12506944766654_1_alg».proof.Proof.Gen.KernelIdeal.Skeleton
import proofs.«129738_j12506944766654_1_alg».proof.Proof.Gen.KernelIdeal.Launch
import proofs.«129738_j12506944766654_1_alg».proof.Proof.Gen.KernelIdeal.Points
import proofs.«129738_j12506944766654_1_alg».proof.Proof.Gen.KernelIdeal.Frame
import proofs.«129738_j12506944766654_1_alg».proof.Proof.Gen.ReferenceIdeal
import proofs.«129738_j12506944766654_1_alg».proof.Proof.Gen.ReferenceIdeal.Run
import proofs.«129738_j12506944766654_1_alg».proof.Proof.Gen.ReferenceIdeal.Read
import proofs.«129738_j12506944766654_1_alg».proof.Proof.Gen.Pre_finite_inputs
import proofs.«129738_j12506944766654_1_alg».proof.Proof.RefLoss
import proofs.«129738_j12506944766654_1_alg».proof.Proof.KernelLoss
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's frame is its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both runs end at the loss of the clouds they were launched with, and the clouds agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => fun _ => Cert.Chamfer.loss (Cert.KernelIdeal.Running.cloud1 m c) (Cert.KernelIdeal.Running.cloud2 m c),
    Cert.KernelIdeal.Loss.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Chamfer.Ref.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
